-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000 : Shape := ⟨2, ![64, 100000]⟩
abbrev S1600000 : Shape := ⟨1, ![1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S64x100000 : S_.BroadcastsInDim S64x100000 (![] : Fin 0 → Fin S64x100000.rank)
  reducesTo_S64x100000_S_d0_1 : S64x100000.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg2 : IVec S1600000 32) (main_arg6 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S1600000 32 := broadcastInDim S1600000 ![] bcast_S_S1600000 main_c_8
  let main_v25 : IVec S1600000 1 := cmpi .sge main_arg2 main_v24
  let main_c_9 : IVec S_ 1 := constantI S_ 1 1#1
  let main_v26 : IVec S_ 1 := (fun x v => Host.reduce IntOp.andi x v reducesTo_S1600000_S_d0 h_S_) main_v25 main_c_9
  let main_v27 : IVec S_ 1 := andi main_v23 main_v26
  main_v27

def fn {F : FTy → Type} [FloatOps F] (main_arg0 : FVec F S64x100000 .f32) (main_arg1 : IVec S1600000 32) (main_arg2 : IVec S1600000 32) (main_arg3 : FVec F S128x64 .f32) (main_arg4 : FVec F S128 .f32) (main_arg5 : FVec F S64x128 .f32) (main_arg6 : FVec F S64 .f32) : IVec S_ 1 :=
  let main_v0 : FVec F S64x100000 .f32 := Host.absf main_arg0
  let main_cst : FVec F S_ .f32 := constant S_ .f32 0x7F800000#32
  let main_v1 : FVec F S64x100000 .f32 := broadcastInDim S64x100000 ![] bcast_S_S64x100000 main_cst
  let main_v2 : IVec S64x100000 1 := cmpf .olt main_v0 main_v1
  let main_c : IVec S_ 1 := constantI S_ 1 1#1
  let main_v3 : IVec S_ 1 := (fun x v => Host.reduce IntOp.andi x v reducesTo_S64x100000_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg2 main_arg6 main_v13 main_v16
-- ==== Kernel.lean ====
abbrev S64x100000 : Shape := ⟨2, ![64, 100000]⟩
abbrev S1600000 : Shape := ⟨1, ![1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S64x1600000 : Shape := ⟨2, ![64, 1600000]⟩
abbrev S64x102400 : Shape := ⟨2, ![64, 102400]⟩
abbrev S128x1 : Shape := ⟨2, ![128, 1]⟩
abbrev S64x1 : Shape := ⟨2, ![64, 1]⟩
abbrev S64x4096 : Shape := ⟨2, ![64, 4096]⟩
abbrev S128x4096 : Shape := ⟨2, ![128, 4096]⟩

abbrev nBuf : Space → Nat
  | .hbm => 34
  | .vmem => 8
  | .smem => 0
  | _ => 0

abbrev bufTy : (tb : Table) → Fin (tcTables nBuf tb) → BufTy
  | .hbm, ⟨0, _⟩ => ⟨S64x100000, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S64x1600000, .f32⟩
  | .hbm, ⟨16, _⟩ => ⟨S_, .f32⟩
  | .hbm, ⟨17, _⟩ => ⟨S64x100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S64x100000, .f32⟩
  | .hbm, ⟨27, _⟩ => ⟨S_, .i32⟩
  | .hbm, ⟨28, _⟩ => ⟨S_, .f32⟩
  | .hbm, ⟨29, _⟩ => ⟨S64x102400, .f32⟩
  | .hbm, ⟨30, _⟩ => ⟨S128x1, .f32⟩
  | .hbm, ⟨31, _⟩ => ⟨S64x1, .f32⟩
  | .hbm, ⟨32, _⟩ => ⟨S64x102400, .f32⟩
  | .hbm, ⟨33, _⟩ => ⟨S64x100000, .f32⟩
  | .local _ .vmem, ⟨0, _⟩ => ⟨S64x4096, .f32⟩
  | .local _ .vmem, ⟨1, _⟩ => ⟨S64x4096, .f32⟩
  | .local _ .vmem, ⟨2, _⟩ => ⟨S128x64, .f32⟩
  | .local _ .vmem, ⟨3, _⟩ => ⟨S128x1, .f32⟩
  | .local _ .vmem, ⟨4, _⟩ => ⟨S64x128, .f32⟩
  | .local _ .vmem, ⟨5, _⟩ => ⟨S64x1, .f32⟩
  | .local _ .vmem, ⟨6, _⟩ => ⟨S64x4096, .f32⟩
  | .local _ .vmem, ⟨7, _⟩ => ⟨S64x4096, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S64x100000 : S_.BroadcastsInDim S64x100000 (![] : Fin 0 → Fin S64x100000.rank)
  pads_S64x100000_S64x102400_000_024000 : S64x100000.Pads (![0, 0] : Fin 2 → Nat) ![0, 2400] ![0, 0] S64x102400
  h_S_ : 0 < S_.numel
  shapeCasts_S128_S128x1 : S128.ShapeCasts S128x1
  shapeCasts_S64_S64x1 : S64.ShapeCasts S64x1
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S64x128_S64x128_0_0 : ∀ a, (![0, 0] : Fin 2 → Nat) a + S64x128.size a ≤ S64x128.size a
  h_S64x128 : 0 < S64x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  slices_S64x102400_S64x100000_0_0 : S64x102400.Slices ![0, 0] S64x100000
  gather_S64x100000_S1600000x1_S64x1600000_0_1_n_n_1_1_641_wf : GatherDims.WF S64x100000 S1600000x1 S64x1600000 [0] [1] [] [1] [] 1 ![64, 1]
  scatter_S64x100000_S1600000x1_S64x1600000_0_1_1_1_wf : ScatterDims.WF S64x100000 S1600000x1 S64x1600000 [0] [1] [1] 1
  dot_S128x64_S64x4096_S128x4096_1_0_0_1_n_n_wf : DotDims.WF S128x64 S64x4096 S128x4096 [1] [0] [0] [1] [] []
  dot_S64x128_S128x4096_S64x4096_1_0_0_1_n_n_wf : DotDims.WF S64x128 S128x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x102400.size a
  hwx0_0 : ∀ i : grid0.Coords, EltTy.bits .f32 = 32 ∨ (Rect.block (s := S64x102400) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x4096.size a ≤ S64x102400.size a
  hwx0_5 : ∀ i : grid0.Coords, EltTy.bits .f32 = 32 ∨ (Rect.block (s := S64x102400) S64x4096.size (cc0_transform_5 i) (hinb0_5 i)).WholeWords (EltTy.packing .f32)

variable [Facts₀]

def gather_S64x100000_S1600000x1_S64x1600000_0_1_n_n_1_1_641 : GatherDims S64x100000 S1600000x1 S64x1600000 where
  offsetDims := [0]
  collapsedSliceDims := [1]
  operandBatchingDims := []
  startIndicesBatchingDims := []
  startIndexMap := [1]
  indexVectorDim := 1
  sliceSizes := ![64, 1]
  wf := gather_S64x100000_S1600000x1_S64x1600000_0_1_n_n_1_1_641_wf
def scatter_S64x100000_S1600000x1_S64x1600000_0_1_1_1 : ScatterDims S64x100000 S1600000x1 S64x1600000 where
  updateWindowDims := [0]
  insertedWindowDims := [1]
  scatterDimsToOperandDims := [1]
  indexVectorDim := 1
  wf := scatter_S64x100000_S1600000x1_S64x1600000_0_1_1_1_wf
def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf
def dot_S64x128_S128x4096_S64x4096_1_0_0_1_n_n : DotDims S64x128 S128x4096 S64x4096 where
  lhsContracting := [1]
  rhsContracting := [0]
  lhsNonContracting := [0]
  rhsNonContracting := [1]
  lhsBatch := []
  rhsBatch := []
  wf := dot_S64x128_S128x4096_S64x4096_1_0_0_1_n_n_wf

abbrev win0_0 : Pipeline.Window sig grid0 :=
  Pipeline.Window.ofSpec (Memref.whole main_v15) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x100000 : Shape := ⟨2, ![64, 100000]⟩
abbrev S1600000 : Shape := ⟨1, ![1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S64x100000, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S128, .f32⟩
  | .hbm, ⟨5, _⟩ => ⟨S64x128, .f32⟩
  | .hbm, ⟨6, _⟩ => ⟨S64, .f32⟩
  | .hbm, ⟨7, _⟩ => ⟨S100000x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S64x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S128x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S64x100000, .f32⟩
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  transposes_S64x100000_S100000x64_1_0 : S64x100000.Transposes [1, 0] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S100000x64_S64x100000_1_0 : S100000x64.Transposes [1, 0] S64x100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  Message passing over a graph followed by a two-layer perceptron, as one function of the argument arrays.

  Nodes carry 64 features (`inp`, features by nodes). Every edge `e` has a source word and a destination word.
  The feature `f` aggregated at node `n` is the sum, over the edges whose destination word read as a signed
  integer is `n`, of feature `f` of the edge's source node (the source word read signed and clamped into the
  node range). Each node's aggregated column then goes through `W2 · relu (W1 · a + b1) + b2`.
-/
import Idealize.ShloMosaic.Lib.ValueIdx
import Idealize.ShloMosaic.PureOps.Ideal

noncomputable section

namespace Cert.MsgPass

open Idealize.ShloMosaic Idealize.ShloMosaic.ValueIdx

/-- A scalar word spreads over the list of edges. -/
theorem spread : (⟨0, ![]⟩ : Shape).BroadcastsInDim ⟨1, ![1600000]⟩ (![] : Fin 0 → Fin (⟨1, ![1600000]⟩ : Shape).rank) := by decide

/-- Python's negative indexing on a list of edge words: a word below zero has the node count added to it,
    every other word stays as it is. -/
def wrapWords (x : IVec ⟨1, ![1600000]⟩ 32) : IVec ⟨1, ![1600000]⟩ 32 :=
  select (cmpi .slt x (broadcastInDim ⟨1, ![1600000]⟩ ![] spread (constantI ⟨0, ![]⟩ 32 0#32)))
    (addi x (broadcastInDim ⟨1, ![1600000]⟩ ![] spread (constantI ⟨0, ![]⟩ 32 100000#32))) x

/-- The node an edge reads its features from: its source word read signed and clamped into `[0, 99999]`. -/
def srcNode (sw : IVec ⟨1, ![1600000]⟩ 32) (e : Fin 1600000) : Fin 100000 :=
  ⟨min (sw (ix1 e)).toInt.toNat (100000 - 1), by omega⟩

/-- Feature `f` aggregated at node `n`: the sum over the edges whose destination word is `n` of the source
    node's feature `f`. -/
def agg (inp : (⟨2, ![64, 100000]⟩ : Shape).Idx → EReal) (sw dw : IVec ⟨1, ![1600000]⟩ 32) (f : Fin 64) (n : Fin 100000) : EReal :=
  ∑ e ∈ Finset.univ.filter (fun e : Fin 1600000 => (dw (ix1 e)).toInt = (n.val : Int)), inp (ix2 f (srcNode sw e))

/-- The perceptron on one column `a` of 64 features, at output row `o`:
    `∑ j, W2[o, j] · max (∑ f, W1[j, f] · a f + b1[j]) 0 + b2[o]`. -/
def mlpCol (a : Fin 64 → EReal) (W1 : (⟨2, ![128, 64]⟩ : Shape).Idx → EReal) (b1 : (⟨1, ![128]⟩ : Shape).Idx → EReal)
    (W2 : (⟨2, ![64, 128]⟩ : Shape).Idx → EReal) (b2 : (⟨1, ![64]⟩ : Shape).Idx → EReal) (o : Fin 64) : EReal :=
  (∑ j : Fin 128, W2 (ix2 o j) * max ((∑ f : Fin 64, W1 (ix2 j f) * a f) + b1 (ix1 j)) 0) + b2 (ix1 o)

/-- The whole result, outputs by nodes: the perceptron of each node's aggregated column. -/
def G (inp : (⟨2, ![64, 100000]⟩ : Shape).Idx → EReal) (sw dw : IVec ⟨1, ![1600000]⟩ 32)
    (W1 : (⟨2, ![128, 64]⟩ : Shape).Idx → EReal) (b1 : (⟨1, ![128]⟩ : Shape).Idx → EReal)
    (W2 : (⟨2, ![64, 128]⟩ : Shape).Idx → EReal) (b2 : (⟨1, ![64]⟩ : Shape).Idx → EReal) :
    (⟨2, ![64, 100000]⟩ : Shape).Idx → EReal :=
  fun i => mlpCol (fun f => agg inp sw dw f (i 1)) W1 b1 W2 b2 (i 0)

end Cert.MsgPass

end
-- ==== Proof.LibAxisScatter.lean ====
/-
  A scatter-add along one axis of a matrix, read at an entry.

  `x.at[:, idx].add(u)` (columns) and `x.at[idx].add(u)` (rows) of a matrix `x` by a list of `E` signed index
  words kept as an `E × 1` column: entry `(a, n)` of the result is `x (a, n)` plus the sum of the updates of the
  positions `e` whose index word, read signed, is `n` (a word outside the axis lands nowhere).
-/
import Idealize.ShloMosaic.Lib.ValueIdx
import Idealize.ShloMosaic.PureOps.Ideal

noncomputable section

namespace Cert.Lib.AxisScatter

open Idealize.ShloMosaic Idealize.ShloMosaic.ValueIdx

variable {A N E w : Nat}

/-- The index word of position `e` in the `E × 1` column of index words. -/
abbrev wordIdx (e : Fin E) : (⟨2, ![E, 1]⟩ : Shape).Idx := ix2 e (0 : Fin 1)

/-- `x.at[:, idx].add(u)`: the operand `A × N`, the updates `A × E`, axis 1 scattered. -/
abbrev colsScatter (A N E : Nat) (wf : ScatterDims.WF ⟨2, ![A, N]⟩ ⟨2, ![E, 1]⟩ ⟨2, ![A, E]⟩ [0] [1] [1] 1) :
    ScatterDims ⟨2, ![A, N]⟩ ⟨2, ![E, 1]⟩ ⟨2, ![A, E]⟩ where
  updateWindowDims := [0]
  insertedWindowDims := [1]
  scatterDimsToOperandDims := [1]
  indexVectorDim := 1
  wf := wf

/-- `x.at[idx].add(u)`: the operand `N × A`, the updates `E × A`, axis 0 scattered. -/
abbrev rowsScatter (N A E : Nat) (wf : ScatterDims.WF ⟨2, ![N, A]⟩ ⟨2, ![E, 1]⟩ ⟨2, ![E, A]⟩ [1] [0] [0] 1) :
    ScatterDims ⟨2, ![N, A]⟩ ⟨2, ![E, 1]⟩ ⟨2, ![E, A]⟩ where
  updateWindowDims := [1]
  insertedWindowDims := [0]
  scatterDimsToOperandDims := [0]
  indexVectorDim := 1
  wf := wf

/-- An update lands at operand index `i` exactly when start plus window coordinate is `i`'s coordinate on every axis
    (the in-range test then holds because `i` is an index of the operand). -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have h1 := congrArg Fin.val (congrFun hf a)
      simp only at h1
      have h2 := h a
      omega
    · intro hf
      funext a
      apply Fin.ext
      simp only
      have h1 := hf a
      omega
  · rename_i h
    constructor
    · intro hf
      cases hf
    · intro hf
      exfalso
      apply h
      intro a
      have h1 := hf a
      have h2 := (i a).isLt
      omega

/-! ### Columns: start and window coordinate of update index `(a', e)` on the two operand axes -/

/-- Axis 0 is not scattered: its start is `0`. -/
private theorem cols_start0 (wf : ScatterDims.WF ⟨2, ![A, N]⟩ ⟨2, ![E, 1]⟩ ⟨2, ![A, E]⟩ [0] [1] [1] 1)
    (idx : IVec ⟨2, ![E, 1]⟩ w) (j : (⟨2, ![A, E]⟩ : Shape).Idx) :
    (colsScatter A N E wf).start j idx 0 = 0 := by
  unfold ScatterDims.start
  rw [dif_neg (show (0 : Fin 2) ∉ [(1 : Fin 2)] by decide)]

/-- Axis 1 is scattered: its start is the index word of position `e`, read signed. -/
private theorem cols_start1 (wf : ScatterDims.WF ⟨2, ![A, N]⟩ ⟨2, ![E, 1]⟩ ⟨2, ![A, E]⟩ [0] [1] [1] 1)
    (idx : IVec ⟨2, ![E, 1]⟩ w) (a' : Fin A) (e : Fin E) :
    (colsScatter A N E wf).start (ix2 a' e) idx 1 = (idx (wordIdx e)).toInt := by
  unfold ScatterDims.start
  rw [dif_pos (show (1 : Fin 2) ∈ (colsScatter A N E wf).scatterDimsToOperandDims from List.mem_singleton.mpr rfl)]
  congr 2
  funext b
  refine Fin.ext ?_
  match b with
  | ⟨0, _⟩ => rfl
  | ⟨1, _⟩ => rfl

/-- Axis 0 is the one kept axis: the window coordinate there is `a'`. -/
private theorem cols_window0 (wf : ScatterDims.WF ⟨2, ![A, N]⟩ ⟨2, ![E, 1]⟩ ⟨2, ![A, E]⟩ [0] [1] [1] 1)
    (a' : Fin A) (e : Fin E) :
    (colsScatter A N E wf).window (ix2 a' e) 0 = a'.val := by
  unfold ScatterDims.window
  have hm : (0 : Fin 2) ∈ (colsScatter A N E wf).sKept :=
    (show (0 : Fin 2) ∈ (List.finRange 2).filter (· ∉ [(1 : Fin 2)]) by decide)
  rw [dif_pos hm]
  rfl

/-- Axis 1 is inserted: the window coordinate there is `0`. -/
private theorem cols_window1 (wf : ScatterDims.WF ⟨2, ![A, N]⟩ ⟨2, ![E, 1]⟩ ⟨2, ![A, E]⟩ [0] [1] [1] 1)
    (j : (⟨2, ![A, E]⟩ : Shape).Idx) :
    (colsScatter A N E wf).window j 1 = 0 := by
  unfold ScatterDims.window
  have hm : (1 : Fin 2) ∉ (colsScatter A N E wf).sKept :=
    (show (1 : Fin 2) ∉ (List.finRange 2).filter (· ∉ [(1 : Fin 2)]) by decide)
  rw [dif_neg hm]

/-- Update `(a', e)` lands at entry `(a, n)` exactly when `a' = a` and the index word of `e`, read signed, is `n`. -/
private theorem cols_resultIdx_iff (wf : ScatterDims.WF ⟨2, ![A, N]⟩ ⟨2, ![E, 1]⟩ ⟨2, ![A, E]⟩ [0] [1] [1] 1)
    (idx : IVec ⟨2, ![E, 1]⟩ w) (a' a : Fin A) (e : Fin E) (n : Fin N) :
    (colsScatter A N E wf).resultIdx? (ix2 a' e) idx = some (ix2 a n)
      ↔ a' = a ∧ (idx (wordIdx e)).toInt = (n.val : Int) := by
  rw [resultIdx?_eq_some_iff]
  constructor
  · intro h
    have h0 := h 0
    have h1 := h 1
    rw [cols_start0, cols_window0] at h0
    rw [cols_start1, cols_window1] at h1
    refine ⟨Fin.ext ?_, ?_⟩
    · have h0' : (0 : Int) + (a'.val : Int) = (a.val : Int) := h0
      omega
    · have h1' : (idx (wordIdx e)).toInt + ((0 : Nat) : Int) = (n.val : Int) := h1
      omega
  · rintro ⟨rfl, hn⟩ b
    match b with
    | ⟨0, _⟩ =>
      show (colsScatter A N E wf).start (ix2 a' e) idx 0 + ((colsScatter A N E wf).window (ix2 a' e) 0 : Int) = (a'.val : Int)
      rw [cols_start0, cols_window0]
      omega
    | ⟨1, _⟩ =>
      show (colsScatter A N E wf).start (ix2 a' e) idx 1 + ((colsScatter A N E wf).window (ix2 a' e) 1 : Int) = (n.val : Int)
      rw [cols_start1, cols_window1]
      omega

/-! ### Rows: start and window coordinate of update index `(e, a')` on the two operand axes -/

/-- Axis 0 is scattered: its start is the index word of position `e`, read signed. -/
private theorem rows_start0 (wf : ScatterDims.WF ⟨2, ![N, A]⟩ ⟨2, ![E, 1]⟩ ⟨2, ![E, A]⟩ [1] [0] [0] 1)
    (idx : IVec ⟨2, ![E, 1]⟩ w) (e : Fin E) (a' : Fin A) :
    (rowsScatter N A E wf).start (ix2 e a') idx 0 = (idx (wordIdx e)).toInt := by
  unfold ScatterDims.start
  rw [dif_pos (show (0 : Fin 2) ∈ (rowsScatter N A E wf).scatterDimsToOperandDims from List.mem_singleton.mpr rfl)]
  congr 2
  funext b
  refine Fin.ext ?_
  match b with
  | ⟨0, _⟩ => rfl
  | ⟨1, _⟩ => rfl

/-- Axis 1 is not scattered: its start is `0`. -/
private theorem rows_start1 (wf : ScatterDims.WF ⟨2, ![N, A]⟩ ⟨2, ![E, 1]⟩ ⟨2, ![E, A]⟩ [1] [0] [0] 1)
    (idx : IVec ⟨2, ![E, 1]⟩ w) (j : (⟨2, ![E, A]⟩ : Shape).Idx) :
    (rowsScatter N A E wf).start j idx 1 = 0 := by
  unfold ScatterDims.start
  rw [dif_neg (show (1 : Fin 2) ∉ [(0 : Fin 2)] by decide)]

/-- Axis 0 is inserted: the window coordinate there is `0`. -/
private theorem rows_window0 (wf : ScatterDims.WF ⟨2, ![N, A]⟩ ⟨2, ![E, 1]⟩ ⟨2, ![E, A]⟩ [1] [0] [0] 1)
    (j : (⟨2, ![E, A]⟩ : Shape).Idx) :
    (rowsScatter N A E wf).window j 0 = 0 := by
  unfold ScatterDims.window
  have hm : (0 : Fin 2) ∉ (rowsScatter N A E wf).sKept :=
    (show (0 : Fin 2) ∉ (List.finRange 2).filter (· ∉ [(0 : Fin 2)]) by decide)
  rw [dif_neg hm]

/-- Axis 1 is the one kept axis: the window coordinate there is `a'`. -/
private theorem rows_window1 (wf : ScatterDims.WF ⟨2, ![N, A]⟩ ⟨2, ![E, 1]⟩ ⟨2, ![E, A]⟩ [1] [0] [0] 1)
    (e : Fin E) (a' : Fin A) :
    (rowsScatter N A E wf).window (ix2 e a') 1 = a'.val := by
  unfold ScatterDims.window
  have hm : (1 : Fin 2) ∈ (rowsScatter N A E wf).sKept :=
    (show (1 : Fin 2) ∈ (List.finRange 2).filter (· ∉ [(0 : Fin 2)]) by decide)
  rw [dif_pos hm]
  rfl

/-- Update `(e, a')` lands at entry `(n, a)` exactly when `a' = a` and the index word of `e`, read signed, is `n`. -/
private theorem rows_resultIdx_iff (wf : ScatterDims.WF ⟨2, ![N, A]⟩ ⟨2, ![E, 1]⟩ ⟨2, ![E, A]⟩ [1] [0] [0] 1)
    (idx : IVec ⟨2, ![E, 1]⟩ w) (a' a : Fin A) (e : Fin E) (n : Fin N) :
    (rowsScatter N A E wf).resultIdx? (ix2 e a') idx = some (ix2 n a)
      ↔ a' = a ∧ (idx (wordIdx e)).toInt = (n.val : Int) := by
  rw [resultIdx?_eq_some_iff]
  constructor
  · intro h
    have h0 := h 0
    have h1 := h 1
    rw [rows_start0, rows_window0] at h0
    rw [rows_start1, rows_window1] at h1
    refine ⟨Fin.ext ?_, ?_⟩
    · have h1' : (0 : Int) + (a'.val : Int) = (a.val : Int) := h1
      omega
    · have h0' : (idx (wordIdx e)).toInt + ((0 : Nat) : Int) = (n.val : Int) := h0
      omega
  · rintro ⟨rfl, hn⟩ b
    match b with
    | ⟨0, _⟩ =>
      show (rowsScatter N A E wf).start (ix2 e a') idx 0 + ((rowsScatter N A E wf).window (ix2 e a') 0 : Int) = (n.val : Int)
      rw [rows_start0, rows_window0]
      omega
    | ⟨1, _⟩ =>
      show (rowsScatter N A E wf).start (ix2 e a') idx 1 + ((rowsScatter N A E wf).window (ix2 e a') 1 : Int) = (a'.val : Int)
      rw [rows_start1, rows_window1]
      omega

/-- THE COLUMNS SCATTER-ADD AT AN ENTRY: `x (a, n)` plus the updates `(a, e)` of the positions `e` whose index word,
    read signed, is `n`. -/
theorem scatterAdd_cols_apply (wf : ScatterDims.WF ⟨2, ![A, N]⟩ ⟨2, ![E, 1]⟩ ⟨2, ![A, E]⟩ [0] [1] [1] 1)
    (x : (⟨2, ![A, N]⟩ : Shape).Idx → EReal) (idx : IVec ⟨2, ![E, 1]⟩ w) (upd : (⟨2, ![A, E]⟩ : Shape).Idx → EReal)
    (a : Fin A) (n : Fin N) :
    Ideal.hostScatterAdd (colsScatter A N E wf) x idx upd (ix2 a n)
      = x (ix2 a n) + ∑ e ∈ Finset.univ.filter (fun e : Fin E => (idx (wordIdx e)).toInt = (n.val : Int)), upd (ix2 a e) := by
  unfold Ideal.hostScatterAdd
  congr 1
  rw [Finset.sum_filter, Finset.sum_filter, sum_idx2, Finset.sum_comm]
  refine Finset.sum_congr rfl fun e _ => ?_
  simp only [cols_resultIdx_iff]
  by_cases hq : (idx (wordIdx e)).toInt = (n.val : Int)
  · simp only [hq, and_true, if_true]
    rw [Finset.sum_ite_eq' Finset.univ a (fun a' => upd (ix2 a' e))]
    simp
  · simp only [hq, and_false, if_false]
    exact Finset.sum_const_zero

/-- THE ROWS SCATTER-ADD AT AN ENTRY: `x (n, a)` plus the updates `(e, a)` of the positions `e` whose index word,
    read signed, is `n`. -/
theorem scatterAdd_rows_apply (wf : ScatterDims.WF ⟨2, ![N, A]⟩ ⟨2, ![E, 1]⟩ ⟨2, ![E, A]⟩ [1] [0] [0] 1)
    (x : (⟨2, ![N, A]⟩ : Shape).Idx → EReal) (idx : IVec ⟨2, ![E, 1]⟩ w) (upd : (⟨2, ![E, A]⟩ : Shape).Idx → EReal)
    (n : Fin N) (a : Fin A) :
    Ideal.hostScatterAdd (rowsScatter N A E wf) x idx upd (ix2 n a)
      = x (ix2 n a) + ∑ e ∈ Finset.univ.filter (fun e : Fin E => (idx (wordIdx e)).toInt = (n.val : Int)), upd (ix2 e a) := by
  unfold Ideal.hostScatterAdd
  congr 1
  rw [Finset.sum_filter, Finset.sum_filter, sum_idx2]
  refine Finset.sum_congr rfl fun e _ => ?_
  simp only [rows_resultIdx_iff]
  by_cases hq : (idx (wordIdx e)).toInt = (n.val : Int)
  · simp only [hq, and_true, if_true]
    rw [Finset.sum_ite_eq' Finset.univ a (fun a' => upd (ix2 e a'))]
    simp
  · simp only [hq, and_false, if_false]
    exact Finset.sum_const_zero

end Cert.Lib.AxisScatter

end
-- ==== Proof.LibAxisGather.lean ====
/-
  A gather along one axis of a matrix, read at an entry.

  `x[:, idx]` (columns) and `x[idx]` (rows) of a matrix `x` by a list of `E` signed index words kept as an
  `E × 1` column: the result reads the column, or the row, at the index word read signed and clamped into the axis.
-/
import Idealize.ShloMosaic.Lib.ValueIdx
import Idealize.ShloMosaic.PureOps.Ideal

noncomputable section

namespace Cert.Lib.AxisGather

open Idealize.ShloMosaic Idealize.ShloMosaic.ValueIdx

variable {A N E w : Nat}

/-- The index word of position `e` in the `E × 1` column of index words. -/
abbrev wordIdx (e : Fin E) : (⟨2, ![E, 1]⟩ : Shape).Idx := ix2 e (0 : Fin 1)

/-- `x[:, idx]`: the operand `A × N`, the result `A × E`. -/
abbrev colsGather (A N E : Nat) (wf : GatherDims.WF ⟨2, ![A, N]⟩ ⟨2, ![E, 1]⟩ ⟨2, ![A, E]⟩ [0] [1] [] [1] [] 1 ![A, 1]) :
    GatherDims ⟨2, ![A, N]⟩ ⟨2, ![E, 1]⟩ ⟨2, ![A, E]⟩ where
  offsetDims := [0]
  collapsedSliceDims := [1]
  operandBatchingDims := []
  startIndicesBatchingDims := []
  startIndexMap := [1]
  indexVectorDim := 1
  sliceSizes := ![A, 1]
  wf := wf

/-- `x[idx]`: the operand `N × A`, the result `E × A`. -/
abbrev rowsGather (N A E : Nat) (wf : GatherDims.WF ⟨2, ![N, A]⟩ ⟨2, ![E, 1]⟩ ⟨2, ![E, A]⟩ [1] [0] [] [0] [] 1 ![1, A]) :
    GatherDims ⟨2, ![N, A]⟩ ⟨2, ![E, 1]⟩ ⟨2, ![E, A]⟩ where
  offsetDims := [1]
  collapsedSliceDims := [0]
  operandBatchingDims := []
  startIndicesBatchingDims := []
  startIndexMap := [0]
  indexVectorDim := 1
  sliceSizes := ![1, A]
  wf := wf

/-- THE COLUMNS GATHER AT AN ENTRY: result `(a, e)` is `x` at row `a` and the column position `e`'s index word names,
    read signed and clamped into `[0, N − 1]`. -/
theorem gather_cols_apply {α : Type} (hN : 0 < N)
    (wf : GatherDims.WF ⟨2, ![A, N]⟩ ⟨2, ![E, 1]⟩ ⟨2, ![A, E]⟩ [0] [1] [] [1] [] 1 ![A, 1])
    (x : (⟨2, ![A, N]⟩ : Shape).Idx → α) (idx : IVec ⟨2, ![E, 1]⟩ w) (a : Fin A) (e : Fin E) :
    Host.gather (colsGather A N E wf) x idx (ix2 a e)
      = x (ix2 a ⟨min (idx (wordIdx e)).toInt.toNat (N - 1), by omega⟩) := by
  unfold Host.gather
  congr 1
  funext c
  refine Fin.ext ?_
  match c with
  | ⟨0, _⟩ =>
    -- axis 0 is not start-indexed, not batching, and is the one kept axis: the offset coordinate
    show (colsGather A N E wf).start (ix2 a e) idx 0 + (colsGather A N E wf).batchCoord (ix2 a e) 0
      + (colsGather A N E wf).offCoord (ix2 a e) 0 = a.val
    have hk : (0 : Fin 2) ∈ (colsGather A N E wf).sKept := by
      rw [GatherDims.mem_sKept]; exact ⟨show (0 : Fin 2) ∉ ([1] : List (Fin 2)) by decide, List.not_mem_nil⟩
    rw [GatherDims.batchCoord_eq_zero _ _ _ List.not_mem_nil]
    unfold GatherDims.start
    rw [dif_neg (show (0 : Fin 2) ∉ ([1] : List (Fin 2)) by decide)]
    unfold GatherDims.offCoord
    rw [dif_pos hk]
    simp only [Nat.zero_add, Nat.add_zero]
    rfl
  | ⟨1, _⟩ =>
    -- axis 1 is start-indexed and collapsed: the clamped start alone
    show (colsGather A N E wf).start (ix2 a e) idx 1 + (colsGather A N E wf).batchCoord (ix2 a e) 1
      + (colsGather A N E wf).offCoord (ix2 a e) 1 = min (idx (wordIdx e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsGather A N E wf).startIndexMap from List.mem_singleton.mpr rfl)]
    have hsi : (colsGather A N E wf).siIdx (ix2 a e) ⟨List.idxOf (1 : Fin 2) (colsGather A N E wf).startIndexMap,
        List.idxOf_lt_length_iff.2 (List.mem_singleton.mpr rfl)⟩ = wordIdx e := by
      funext b; refine Fin.ext ?_
      match b with
      | ⟨0, _⟩ => rfl
      | ⟨1, _⟩ => rfl
    rw [hsi]
    rfl

/-- THE ROWS GATHER AT AN ENTRY: result `(e, a)` is `x` at column `a` and the row position `e`'s index word names,
    read signed and clamped into `[0, N − 1]`. -/
theorem gather_rows_apply {α : Type} (hN : 0 < N)
    (wf : GatherDims.WF ⟨2, ![N, A]⟩ ⟨2, ![E, 1]⟩ ⟨2, ![E, A]⟩ [1] [0] [] [0] [] 1 ![1, A])
    (x : (⟨2, ![N, A]⟩ : Shape).Idx → α) (idx : IVec ⟨2, ![E, 1]⟩ w) (e : Fin E) (a : Fin A) :
    Host.gather (rowsGather N A E wf) x idx (ix2 e a)
      = x (ix2 ⟨min (idx (wordIdx e)).toInt.toNat (N - 1), by omega⟩ a) := by
  unfold Host.gather
  congr 1
  funext c
  refine Fin.ext ?_
  match c with
  | ⟨0, _⟩ =>
    -- axis 0 is start-indexed and collapsed: the clamped start alone
    show (rowsGather N A E wf).start (ix2 e a) idx 0 + (rowsGather N A E wf).batchCoord (ix2 e a) 0
      + (rowsGather N A E wf).offCoord (ix2 e a) 0 = min (idx (wordIdx e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N A E wf).startIndexMap from List.mem_singleton.mpr rfl)]
    have hsi : (rowsGather N A E wf).siIdx (ix2 e a) ⟨List.idxOf (0 : Fin 2) (rowsGather N A E wf).startIndexMap,
        List.idxOf_lt_length_iff.2 (List.mem_singleton.mpr rfl)⟩ = wordIdx e := by
      funext b; refine Fin.ext ?_
      match b with
      | ⟨0, _⟩ => rfl
      | ⟨1, _⟩ => rfl
    rw [hsi]
    rfl
  | ⟨1, _⟩ =>
    -- axis 1 is not start-indexed, not batching, and is the one kept axis: the offset coordinate
    show (rowsGather N A E wf).start (ix2 e a) idx 1 + (rowsGather N A E wf).batchCoord (ix2 e a) 1
      + (rowsGather N A E wf).offCoord (ix2 e a) 1 = a.val
    have hk : (1 : Fin 2) ∈ (rowsGather N A E wf).sKept := by
      rw [GatherDims.mem_sKept]; exact ⟨show (1 : Fin 2) ∉ ([0] : List (Fin 2)) by decide, List.not_mem_nil⟩
    rw [GatherDims.batchCoord_eq_zero _ _ _ List.not_mem_nil]
    unfold GatherDims.start
    rw [dif_neg (show (1 : Fin 2) ∉ ([0] : List (Fin 2)) by decide)]
    unfold GatherDims.offCoord
    rw [dif_pos hk]
    simp only [Nat.zero_add, Nat.add_zero]
    rfl

end Cert.Lib.AxisGather

end
-- ==== Proof.KHost.lean ====
/-
  What the kernel finds in its operand arrays: the host operations before it gather each edge's source column,
  add the columns of the edges arriving at a node (after Python's wrap of negative words), pad 2400 zero columns
  on the right, and stand each bias vector up as a column. Read at an entry: column `n < 100000` of the padded
  array is the aggregated column of node `n`, and row `j` of a bias column is entry `j` of the bias.
-/
import proofs.«155186_j44805098832263_1_alg».proof.Proof.Gen.KernelIdeal.Frame
import proofs.«155186_j44805098832263_1_alg».proof.Proof.Spec
import proofs.«155186_j44805098832263_1_alg».proof.Proof.LibAxisScatter
import proofs.«155186_j44805098832263_1_alg».proof.Proof.LibAxisGather
import Idealize.ShloMosaic.Lib.KernelVsHost
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KValue

open Cert.KernelIdeal Idealize.ShloMosaic Idealize.ShloMosaic.TcCoe Idealize.ShloMosaic.ValueIdx Idealize.SL.Sem
open Idealize.ShloMosaic.StableHlo
open Cert.KernelIdeal.Facts₀

/-- Python's wrap of negative words, as the program spells it. -/
abbrev wrapped (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

theorem wrapped_eq (x : IVec S1600000 32) : wrapped x = Cert.MsgPass.wrapWords x := rfl

/-- The aggregated features, features by nodes, padded by 2400 node columns: the host operations before the kernel. -/
def aggPad {F : FTy → Type} [FloatOps F] (a0 : FVec F S64x100000 .f32) (a1 a2 : IVec S1600000 32) : FVec F S64x102400 .f32 :=
  pad S64x102400 ![0, 0] ![0, 2400] ![0, 0]
    (Host.scatterAdd scatter_S64x100000_S1600000x1_S64x1600000_0_1_1_1
      (broadcastInDim S64x100000 ![] bcast_S_S64x100000 (constant S_ .f32 0x00000000#32))
      (broadcastInDim S1600000x1 ![0] bcast_S1600000_S1600000x1_0 (wrapped a2))
      (Host.gather gather_S64x100000_S1600000x1_S64x1600000_0_1_n_n_1_1_641 a0
        (broadcastInDim S1600000x1 ![0] bcast_S1600000_S1600000x1_0 (wrapped a1))))
    (sitofp .f32 (constantI S_ 32 0#32)) pads_S64x100000_S64x102400_000_024000 h_S_

/-- A list of words kept as a column reads its entry. -/
theorem column_apply (x : IVec S1600000 32) (e : Fin 1600000) :
    broadcastInDim S1600000x1 ![0] bcast_S1600000_S1600000x1_0 x (ix2 e (0 : Fin 1)) = x (ix1 e) :=
  broadcastInDim_apply _ bcast_S1600000_S1600000x1_0 x (ix2 e (0 : Fin 1)) (ix1 e) fun a => by
    match a with
    | ⟨0, _⟩ => rfl

/-- The columns scatter-add of the program at an entry: the entry plus the updates of the edges whose word is the node. -/
theorem scatter_apply (x : FVec Ideal S64x100000 .f32) (idx : IVec S1600000x1 32) (upd : FVec Ideal S64x1600000 .f32)
    (a : Fin 64) (n : Fin 100000) :
    Host.scatterAdd (F := Ideal) scatter_S64x100000_S1600000x1_S64x1600000_0_1_1_1 x idx upd (ix2 a n)
      = x (ix2 a n) + ∑ e ∈ Finset.univ.filter (fun e : Fin 1600000 => (idx (ix2 e (0 : Fin 1))).toInt = (n.val : Int)), upd (ix2 a e) :=
  Cert.Lib.AxisScatter.scatterAdd_cols_apply scatter_S64x100000_S1600000x1_S64x1600000_0_1_1_1_wf x idx upd a n

/-- The columns gather of the program at an entry: the column the edge's word names, clamped into the nodes. -/
theorem gather_apply (x : FVec Ideal S64x100000 .f32) (idx : IVec S1600000x1 32) (a : Fin 64) (e : Fin 1600000) :
    Host.gather gather_S64x100000_S1600000x1_S64x1600000_0_1_n_n_1_1_641 x idx (ix2 a e)
      = x (ix2 a ⟨min (idx (ix2 e (0 : Fin 1))).toInt.toNat (100000 - 1), by omega⟩) :=
  Cert.Lib.AxisGather.gather_cols_apply (by decide) gather_S64x100000_S1600000x1_S64x1600000_0_1_n_n_1_1_641_wf x idx a e

/-- COLUMN `n` OF THE PADDED ARRAY, for a node `n`, is the node's aggregated column. -/
theorem aggPad_apply (a0 : FVec Ideal S64x100000 .f32) (a1 a2 : IVec S1600000 32) (f : Fin 64) (n : Fin 100000) :
    aggPad (F := Ideal) a0 a1 a2 (ix2 f (⟨n.val, by have := n.isLt; omega⟩ : Fin 102400))
      = Cert.MsgPass.agg a0 (Cert.MsgPass.wrapWords a1) (Cert.MsgPass.wrapWords a2) f n := by
  unfold aggPad
  refine (pad_apply_of_inside _ _ _ _ _ pads_S64x100000_S64x102400_000_024000 h_S_
    (ix2 f (⟨n.val, by have := n.isLt; omega⟩ : Fin 102400)) (ix2 f n) (fun a => ?_)).trans ?_
  · match a with
    | ⟨0, _⟩ => show f.val = 0 + f.val * (0 + 1); omega
    | ⟨1, _⟩ => show n.val = 0 + n.val * (0 + 1); omega
  refine (scatter_apply _ _ _ f n).trans ?_
  have hz : broadcastInDim S64x100000 ![] bcast_S_S64x100000 (constant (F := Ideal) S_ .f32 0x00000000#32) (ix2 f n) = 0 :=
    Ideal.ofBits_zero_f32
  rw [hz, zero_add]
  unfold Cert.MsgPass.agg
  refine Finset.sum_congr (Finset.filter_congr fun e _ => ?_) (fun e _ => ?_)
  · rw [column_apply, wrapped_eq]
  · refine (gather_apply a0 _ f e).trans ?_
    refine congrArg a0 (congrArg (ix2 f) (Fin.ext ?_))
    show min (broadcastInDim S1600000x1 ![0] bcast_S1600000_S1600000x1_0 (wrapped a1) (ix2 e (0 : Fin 1))).toInt.toNat (100000 - 1) = _
    rw [column_apply, wrapped_eq]
    rfl

/-- A vector of 128 stood up as a column reads its entry. -/
theorem col128_apply (b : FVec Ideal S128 .f32) (j : Fin 128) :
    shapeCast S128x1 b shapeCasts_S128_S128x1 (ix2 j (0 : Fin 1)) = b (ix1 j) :=
  shapeCast_apply b shapeCasts_S128_S128x1 (ix2 j (0 : Fin 1)) (ix1 j) (by
    rw [Shape.rowMajor_val_one, Shape.rowMajor_val_two]
    show j.val = j.val * 1 + 0
    omega)

/-- A vector of 64 stood up as a column reads its entry. -/
theorem col64_apply (b : FVec Ideal S64 .f32) (o : Fin 64) :
    shapeCast S64x1 b shapeCasts_S64_S64x1 (ix2 o (0 : Fin 1)) = b (ix1 o) :=
  shapeCast_apply b shapeCasts_S64_S64x1 (ix2 o (0 : Fin 1)) (ix1 o) (by
    rw [Shape.rowMajor_val_one, Shape.rowMajor_val_two]
    show o.val = o.val * 1 + 0
    omega)

variable {F : FTy → Type} [FloatOps F] (m : (ℓ : Loc nD τ sig) → Buf (Elt F) ℓ)

/-- Reading a value's contents at its own buffer's type changes nothing. -/
theorem toBuf15 (h1 h2 h3) (v : (⟨S64x102400, .f32⟩ : BufTy).Contents (Elt F)) :
    (TRef.of (sig := sig) (T := ⟨S64x102400, .f32⟩) main_v15 h1 h2 h3).toBuf v = v := rfl
theorem ofBuf14 (h1 h2 h3) (v : (⟨S64x100000, .f32⟩ : BufTy).Contents (Elt F)) :
    (TRef.of (sig := sig) (T := ⟨S64x100000, .f32⟩) main_v14 h1 h2 h3).ofBuf v = v := rfl
theorem toBufPadValue (h1 h2 h3) (v : (⟨S_, .f32⟩ : BufTy).Contents (Elt F)) :
    (TRef.of (sig := sig) (T := ⟨S_, .f32⟩) main_call0_v0 h1 h2 h3).toBuf v = v := rfl
theorem ofBufPadValue (h1 h2 h3) (v : (⟨S_, .f32⟩ : BufTy).Contents (Elt F)) :
    (TRef.of (sig := sig) (T := ⟨S_, .f32⟩) main_call0_v0 h1 h2 h3).ofBuf v = v := rfl
theorem ofBufZeroWord (h1 h2 h3) (v : (⟨S_, .i32⟩ : BufTy).Contents (Elt F)) :
    (TRef.of (sig := sig) (T := ⟨S_, .i32⟩) main_c_3 h1 h2 h3).ofBuf v = v := rfl

set_option maxHeartbeats 4000000 in
/-- The kernel's first operand is the padded aggregate of the argument arrays. -/
theorem V_aggPad (c : Dev nD) :
    (Gen.V m c main_v15 : S64x102400.Idx → F .f32)
      = aggPad (m ((c : Thread nD τ).loc main_arg0)) (m ((c : Thread nD τ).loc main_arg1)) (m ((c : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results
  rw [toBuf15, ofBuf14, ofBufPadValue, toBufPadValue, ofBufZeroWord]
  rfl

/-- Its third operand is the first bias as a column. -/
theorem V_bias1 (c : Dev nD) :
    (Gen.V m c main_v16 : S128x1.Idx → F .f32) = shapeCast S128x1 (m ((c : Thread nD τ).loc main_arg4)) shapeCasts_S128_S128x1 := by
  dsimp only [Gen.V, Gen.V0]
  simp only [Gen.hostOps0, Gen.hostOps0_1, Gen.hostOps0_2, List.flatten_cons, List.flatten_nil, List.append_nil,
    List.cons_append, List.nil_append]
  after_results
  rfl

/-- Its fifth operand is the second bias as a column. -/
theorem V_bias2 (c : Dev nD) :
    (Gen.V m c main_v17 : S64x1.Idx → F .f32) = shapeCast S64x1 (m ((c : Thread nD τ).loc main_arg6)) shapeCasts_S64_S64x1 := by
  dsimp only [Gen.V, Gen.V0]
  simp only [Gen.hostOps0, Gen.hostOps0_1, Gen.hostOps0_2, List.flatten_cons, List.flatten_nil, List.append_nil,
    List.cons_append, List.nil_append]
  after_results
  rfl

end Cert.KernelIdeal.KValue

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KPayload.lean ====
/-
  The kernel body's arithmetic at one entry of its output block: with `x0` the block of aggregated features
  (features by nodes), `x1`, `x3` the two weight matrices and `x2`, `x4` the two biases kept as columns, entry
  `(o, q)` of the stored block is `∑ j, x3[o, j] · max (∑ f, x1[j, f] · x0[f, q] + x2[j]) 0 + x4[o]`: two matrix
  products into a zero accumulator, each followed by its bias column spread along the nodes, a maximum with zero
  between them; the changes of float format are the identity on the extended reals.
-/
import proofs.«155186_j44805098832263_1_alg».proof.Proof.Gen.KernelIdeal.Skeleton
import proofs.«155186_j44805098832263_1_alg».proof.Proof.LibPlainDot
import Idealize.ShloMosaic.Lib.Pipeline.Value
import Idealize.ShloMosaic.Lib.ValueIdx
import Idealize.ShloMosaic.PureOps.Ideal.Laws

noncomputable section

namespace Cert.KernelIdeal.KValue

open Cert.KernelIdeal Idealize.ShloMosaic Idealize.ShloMosaic.ValueIdx
open Cert.KernelIdeal.Facts₀

/-- A column of 128 biases spread along 4096 nodes reads its row. -/
theorem spread128 (v : FVec Ideal S128x1 .f32) (j : Fin 128) (q : Fin 4096) :
    broadcastTo S128x4096 v broadcasts_S128x1_S128x4096 (ix2 j q) = v (ix2 j (0 : Fin 1)) := by
  refine broadcastTo_apply v broadcasts_S128x1_S128x4096 (ix2 j q) (ix2 j (0 : Fin 1)) fun ax => ?_
  match ax with
  | ⟨0, _⟩ => rfl
  | ⟨1, _⟩ => rfl

/-- A column of 64 biases spread along 4096 nodes reads its row. -/
theorem spread64 (v : FVec Ideal S64x1 .f32) (o : Fin 64) (q : Fin 4096) :
    broadcastTo S64x4096 v broadcasts_S64x1_S64x4096 (ix2 o q) = v (ix2 o (0 : Fin 1)) := by
  refine broadcastTo_apply v broadcasts_S64x1_S64x4096 (ix2 o q) (ix2 o (0 : Fin 1)) fun ax => ?_
  match ax with
  | ⟨0, _⟩ => rfl
  | ⟨1, _⟩ => rfl

/-- The hidden layer at `(j, q)`: `max (∑ f, x1[j, f] · x0[f, q] + x2[j]) 0`. -/
theorem hidden_apply (x0 : FVec Ideal S64x4096 .f32) (x1 : FVec Ideal S128x64 .f32) (x2 : FVec Ideal S128x1 .f32)
    (j : Fin 128) (q : Fin 4096) :
    maximumf (addf (matmul dot_S128x64_S64x4096_S128x4096_1_0_0_1_n_n none (truncf .bf16 x1 bitsLt_bf16_f32)
        (truncf .bf16 (shapeCast S64x4096 x0 shapeCasts_S64x4096_S64x4096) bitsLt_bf16_f32) (constant S128x4096 .f32 0x00000000#32))
      (broadcastTo S128x4096 (shapeCast S128x1 x2 shapeCasts_S128x1_S128x1) broadcasts_S128x1_S128x4096))
      (broadcast S128x4096 (Scalar.ofBits (F := Ideal) .f32 0x00000000#32)) (ix2 j q)
      = max ((∑ f : Fin 64, x1 (ix2 j f) * x0 (ix2 f q)) + x2 (ix2 j (0 : Fin 1))) 0 := by
  rw [maximumf_apply, addf_apply, broadcast_apply, shapeCast_self, shapeCast_self, spread128]
  refine congrArg₂ max (congrArg (· + x2 (ix2 j (0 : Fin 1))) ?_) Ideal.ofBits_zero_f32
  exact Cert.Lib.PlainDot.matmul_zero_apply none _ _ j q

/-- The output layer at `(o, q)` over any hidden block `hv`: `∑ j, x3[o, j] · hv[j, q] + x4[o]`. -/
theorem out_apply (x3 : FVec Ideal S64x128 .f32) (x4 : FVec Ideal S64x1 .f32) (hv : FVec Ideal S128x4096 .f32)
    (o : Fin 64) (q : Fin 4096) :
    addf (matmul dot_S64x128_S128x4096_S64x4096_1_0_0_1_n_n none (truncf .bf16 x3 bitsLt_bf16_f32)
        (truncf .bf16 hv bitsLt_bf16_f32) (constant S64x4096 .f32 0x00000000#32))
      (broadcastTo S64x4096 (shapeCast S64x1 x4 shapeCasts_S64x1_S64x1) broadcasts_S64x1_S64x4096) (ix2 o q)
      = (∑ j : Fin 128, x3 (ix2 o j) * hv (ix2 j q)) + x4 (ix2 o (0 : Fin 1)) := by
  rw [addf_apply, shapeCast_self, spread64]
  exact congrArg (· + x4 (ix2 o (0 : Fin 1))) (Cert.Lib.PlainDot.matmul_zero_apply none _ _ o q)

/-- THE BODY'S STORED VALUE at `(o, q)`. -/
theorem pay_apply (x0 : FVec Ideal S64x4096 .f32) (x1 : FVec Ideal S128x64 .f32) (x2 : FVec Ideal S128x1 .f32)
    (x3 : FVec Ideal S64x128 .f32) (x4 : FVec Ideal S64x1 .f32) (o : Fin 64) (q : Fin 4096) :
    Gen.k0_pay1 (F := Ideal) x0 x1 x2 x3 x4 (ix2 o q)
      = (∑ j : Fin 128, x3 (ix2 o j) * max ((∑ f : Fin 64, x1 (ix2 j f) * x0 (ix2 f q)) + x2 (ix2 j (0 : Fin 1))) 0)
        + x4 (ix2 o (0 : Fin 1)) := by
  unfold Gen.k0_pay1
  refine (out_apply x3 x4 _ o q).trans ?_
  refine congrArg (· + x4 (ix2 o (0 : Fin 1))) (Finset.sum_congr rfl fun j _ => ?_)
  exact congrArg (x3 (ix2 o j) * ·) (hidden_apply x0 x1 x2 j q)

end Cert.KernelIdeal.KValue

end
-- ==== Proof.KFinal.lean ====
/-
  From the kernel's blocks to its whole output array. Point `t` of the 25-point grid stages node columns
  `4096 t … 4096 t + 4095` of the padded aggregate and the whole of both weight matrices and bias columns, and writes
  back the same node columns of the output; the body's stored value at an entry depends only on the entry's own node
  column. So the output array ends as ONE function of the operand arrays, the perceptron of each node column, and the
  25 blocks of 4096 columns cover all 102400.
-/
import proofs.«155186_j44805098832263_1_alg».proof.Proof.Gen.KernelIdeal.Frame
import proofs.«155186_j44805098832263_1_alg».proof.Proof.KPayload
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem zeroOffsets : (![0, 0] : Fin 2 → Nat) = fun _ => 0 := funext fun a => by fin_cases a <;> rfl

/-- The grid has 25 points. -/
theorem point_lt (t : Fin cfg0.N) : t.val < 25 := by
  exact lt_of_lt_of_eq t.isLt (show cfg0.N = 25 from N_0)

/-- The printed index maps over the grid: the first operand and the output move one block of node columns per point,
    every other operand stays at its one block. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- Node column `q` of point `t`'s block, as a column of the padded arrays. -/
def nodeCol (t : Fin cfg0.N) (q : Fin 4096) : Fin 102400 :=
  ⟨t.val * 4096 + q.val, by have := point_lt t; have := q.isLt; omega⟩

/-- The perceptron of each node column of a padded aggregate `ap`, the biases kept as columns. -/
def outPad (ap : FVec Ideal S64x102400 .f32) (W1 : FVec Ideal S128x64 .f32) (b1c : FVec Ideal S128x1 .f32)
    (W2 : FVec Ideal S64x128 .f32) (b2c : FVec Ideal S64x1 .f32) : FVec Ideal S64x102400 .f32 := fun i =>
  (∑ j : Fin 128, W2 (ix2 (i 0) j) * max ((∑ f : Fin 64, W1 (ix2 j f) * ap (ix2 f (i 1))) + b1c (ix2 j (0 : Fin 1))) 0)
    + b2c (ix2 (i 0) (0 : Fin 1))

/-- Point `t`'s block of the first operand is node columns `4096 t …` of the padded aggregate. -/
theorem blk0_apply (c : Dev nD) (t : Fin cfg0.N) (f : Fin 64) (q : Fin 4096) :
    (iblk m c 0 t : Vec Ideal S64x4096 .f32) (ix2 f q) = (V m c main_v15 : S64x102400.Idx → EReal) (ix2 f (nodeCol t q)) := by
  obtain ⟨e0, e1, -⟩ := index_facts t
  unfold iblk
  rw [View.read_apply]
  show V m c main_v15 _ = V m c main_v15 _
  refine congrArg (V m c main_v15) (funext fun a => Fin.ext ?_)
  match a with
  | ⟨0, _⟩ => show win0_0.index t (0 : Fin 2) * 64 + 1 * f.val = f.val; rw [e0]; omega
  | ⟨1, _⟩ => show win0_0.index t (1 : Fin 2) * 4096 + 1 * q.val = t.val * 4096 + q.val; rw [e1]; omega

/-- Every point's block of the second operand is the whole first weight matrix. -/
theorem blk1_apply (c : Dev nD) (t : Fin cfg0.N) (y : S128x64.Idx) :
    (iblk m c 1 t : Vec Ideal S128x64 .f32) y = (V m c main_arg3 : S128x64.Idx → EReal) y := by
  obtain ⟨-, -, e0, e1, -⟩ := index_facts t
  unfold iblk
  rw [View.read_apply]
  show V m c main_arg3 _ = V m c main_arg3 _
  refine congrArg (V m c main_arg3) (funext fun a => Fin.ext ?_)
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- Every point's block of the third operand is the whole first bias column. -/
theorem blk2_apply (c : Dev nD) (t : Fin cfg0.N) (y : S128x1.Idx) :
    (iblk m c 2 t : Vec Ideal S128x1 .f32) y = (V m c main_v16 : S128x1.Idx → EReal) y := by
  obtain ⟨-, -, -, -, e0, e1, -⟩ := index_facts t
  unfold iblk
  rw [View.read_apply]
  show V m c main_v16 _ = V m c main_v16 _
  refine congrArg (V m c main_v16) (funext fun a => Fin.ext ?_)
  match a with
  | ⟨0, _⟩ => show win0_2.index t (0 : Fin 2) * 128 + 1 * (y 0).val = (y 0).val; rw [e0]; omega
  | ⟨1, _⟩ => show win0_2.index t (1 : Fin 2) * 1 + 1 * (y 1).val = (y 1).val; rw [e1]; omega

/-- Every point's block of the fourth operand is the whole second weight matrix. -/
theorem blk3_apply (c : Dev nD) (t : Fin cfg0.N) (y : S64x128.Idx) :
    (iblk m c 3 t : Vec Ideal S64x128 .f32) y = (V m c main_arg5 : S64x128.Idx → EReal) y := by
  obtain ⟨-, -, -, -, -, -, e0, e1, -⟩ := index_facts t
  unfold iblk
  rw [View.read_apply]
  show V m c main_arg5 _ = V m c main_arg5 _
  refine congrArg (V m c main_arg5) (funext fun a => Fin.ext ?_)
  match a with
  | ⟨0, _⟩ => show win0_3.index t (0 : Fin 2) * 64 + 1 * (y 0).val = (y 0).val; rw [e0]; omega
  | ⟨1, _⟩ => show win0_3.index t (1 : Fin 2) * 128 + 1 * (y 1).val = (y 1).val; rw [e1]; omega

/-- Every point's block of the fifth operand is the whole second bias column. -/
theorem blk4_apply (c : Dev nD) (t : Fin cfg0.N) (y : S64x1.Idx) :
    (iblk m c 4 t : Vec Ideal S64x1 .f32) y = (V m c main_v17 : S64x1.Idx → EReal) y := by
  obtain ⟨-, -, -, -, -, -, -, -, e0, e1, -⟩ := index_facts t
  unfold iblk
  rw [View.read_apply]
  show V m c main_v17 _ = V m c main_v17 _
  refine congrArg (V m c main_v17) (funext fun a => Fin.ext ?_)
  match a with
  | ⟨0, _⟩ => show win0_4.index t (0 : Fin 2) * 64 + 1 * (y 0).val = (y 0).val; rw [e0]; omega
  | ⟨1, _⟩ => show win0_4.index t (1 : Fin 2) * 1 + 1 * (y 1).val = (y 1).val; rw [e1]; omega

/-- The operand arrays as the kernel finds them, at their literal types. -/
abbrev aggArr (c : Dev nD) : FVec Ideal S64x102400 .f32 := V m c main_v15
abbrev w1Arr (c : Dev nD) : FVec Ideal S128x64 .f32 := V m c main_arg3
abbrev b1Arr (c : Dev nD) : FVec Ideal S128x1 .f32 := V m c main_v16
abbrev w2Arr (c : Dev nD) : FVec Ideal S64x128 .f32 := V m c main_arg5
abbrev b2Arr (c : Dev nD) : FVec Ideal S64x1 .f32 := V m c main_v17

/-- WHAT POINT `t` WRITES BACK is block `t` of the perceptron of the operand arrays' node columns. -/
theorem flushed_eq (c : Dev nD) (t : Fin cfg0.N) :
    (dats m 0 c).flushed 5 t = ((cfg0.win 5).blk t).view.read (Elt Ideal)
      (outPad (aggArr m c) (w1Arr m c) (b1Arr m c) (w2Arr m c) (b2Arr m c)) := by
  show (cfg0.win 5).cut (grid0.coords t) ((dats m 0 c).after 5 t) = _
  rw [after0_5]
  unfold out0_5
  rw [View.canon_unit_zero zeroOffsets]
  simp only [View.ld_unit_zero (S := S64x4096) zeroOffsets, View.ld_unit_zero (S := S128x64) zeroOffsets,
    View.ld_unit_zero (S := S128x1) zeroOffsets, View.ld_unit_zero (S := S64x128) zeroOffsets,
    View.ld_unit_zero (S := S64x1) zeroOffsets]
  obtain ⟨-, -, -, -, -, -, -, -, -, -, e0, e1⟩ := index_facts t
  funext y
  obtain ⟨o, q, rfl⟩ : ∃ (o : Fin 64) (q : Fin 4096), y = ix2 o q := ⟨y 0, y 1, eq_ix2 y⟩
  have h5 : ((cfg0.win 5).blk t).view.emb (ix2 o q) = (ix2 o (nodeCol t q) : S64x102400.Idx) := by
    funext a; apply Fin.ext
    match a with
    | ⟨0, _⟩ => show win0_5.index t (0 : Fin 2) * 64 + 1 * o.val = o.val; rw [e0]; omega
    | ⟨1, _⟩ => show win0_5.index t (1 : Fin 2) * 4096 + 1 * q.val = t.val * 4096 + q.val; rw [e1]; omega
  show k0_pay1 (F := Ideal) (iblk m c 0 t) (iblk m c 1 t) (iblk m c 2 t) (iblk m c 3 t) (iblk m c 4 t) (ix2 o q)
    = outPad (aggArr m c) (w1Arr m c) (b1Arr m c) (w2Arr m c) (b2Arr m c) (((cfg0.win 5).blk t).view.emb (ix2 o q))
  rw [h5]
  refine (pay_apply _ _ _ _ _ o q).trans ?_
  unfold outPad
  refine congrArg₂ (· + ·) (Finset.sum_congr rfl fun j _ => congrArg₂ (· * ·) (blk3_apply m c t (ix2 o j))
    (congrArg (max · 0) (congrArg₂ (· + ·) (Finset.sum_congr rfl fun f _ => congrArg₂ (· * ·) (blk1_apply m c t (ix2 j f))
      (blk0_apply m c t f q)) (blk2_apply m c t (ix2 j (0 : Fin 1)))))) (blk4_apply m c t (ix2 o (0 : Fin 1)))

/-- An index of the output array is in point `t`'s block iff each coordinate is in the block's range on its axis. -/
theorem mem_outBlock (t : Fin cfg0.N) (i : S64x102400.Idx) :
    i ∈ ((cfg0.win 5).blk t).view.set ↔ ∀ a : Fin 2, win0_5.index t a * S64x4096.size a ≤ (i a).val
      ∧ (i a).val < win0_5.index t a * S64x4096.size a + S64x4096.size a := by
  show i ∈ ((View.whole main_v18).slice (win0_5.rect t)).set ↔ _
  rw [View.set_slice_whole, Rect.mem_set_unit]
  exact Iff.rfl

/-- Every entry of the output array is in the block of the point its node column falls in. -/
theorem outCover (i : S64x102400.Idx) :
    ∃ t : Fin cfg0.N, (cfg0.win 5).flush t = true ∧ i ∈ ((cfg0.win 5).blk t).view.set := by
  have hi0 : (i 0).val < 64 := (i 0).isLt
  have hi1 : (i 1).val < 102400 := (i 1).isLt
  have hN : cfg0.N = 25 := N_0
  have ht : (i 1).val / 4096 < cfg0.N := by rw [hN]; omega
  obtain ⟨-, -, -, -, -, -, -, -, -, -, e0, e1⟩ := index_facts ⟨(i 1).val / 4096, ht⟩
  refine ⟨⟨(i 1).val / 4096, ht⟩, flush0_5 _, ?_⟩
  rw [mem_outBlock]
  intro a
  match a with
  | ⟨0, _⟩ =>
    show win0_5.index ⟨(i 1).val / 4096, ht⟩ (0 : Fin 2) * 64 ≤ (i 0).val
      ∧ (i 0).val < win0_5.index ⟨(i 1).val / 4096, ht⟩ (0 : Fin 2) * 64 + 64
    rw [e0]; omega
  | ⟨1, _⟩ =>
    show win0_5.index ⟨(i 1).val / 4096, ht⟩ (1 : Fin 2) * 4096 ≤ (i 1).val
      ∧ (i 1).val < win0_5.index ⟨(i 1).val / 4096, ht⟩ (1 : Fin 2) * 4096 + 4096
    rw [e1]
    show (i 1).val / 4096 * 4096 ≤ (i 1).val ∧ (i 1).val < (i 1).val / 4096 * 4096 + 4096
    omega

/-- THE OUTPUT ARRAY after the run: the perceptron of the operand arrays' node columns. -/
theorem outFinal (c : Dev nD) :
    (dats m 0 c).arrAt 5 cfg0.N = outPad (aggArr m c) (w1Arr m c) (b1Arr m c) (w2Arr m c) (b2Arr m c) :=
  (dats m 0 c).arrAt_eq_of_cover 5 (outPad (aggArr m c) (w1Arr m c) (b1Arr m c) (w2Arr m c) (b2Arr m c))
    (fun t _ => flushed_eq m c t) outCover

end Cert.KernelIdeal.KValue

end
-- ==== Proof.KRun.lean ====
/-
  The idealized kernel program's run, read: its result array is the message-passing perceptron `G` of the argument
  arrays (source and destination words both wrapped as Python wraps negative indices), and the arguments end
  unchanged. The result is the first 100000 node columns of the kernel's padded output, each the perceptron of the
  node's aggregated column; the padding columns are cut away unread.
-/
import proofs.«155186_j44805098832263_1_alg».proof.Proof.KHost
import proofs.«155186_j44805098832263_1_alg».proof.Proof.KFinal
import proofs.«155186_j44805098832263_1_alg».proof.Proof.Spec

noncomputable section

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ)

/-- The operand arrays in terms of the argument arrays. -/
theorem aggArr_eq (c : Dev nD) : aggArr m c
    = aggPad (m ((c : Thread nD τ).loc main_arg0)) (m ((c : Thread nD τ).loc main_arg1)) (m ((c : Thread nD τ).loc main_arg2)) :=
  V_aggPad m c
theorem w1Arr_eq (c : Dev nD) : w1Arr m c = m ((c : Thread nD τ).loc main_arg3) := V_main_arg3 m c
theorem b1Arr_eq (c : Dev nD) : b1Arr m c = shapeCast S128x1 (m ((c : Thread nD τ).loc main_arg4)) Facts₀.shapeCasts_S128_S128x1 :=
  V_bias1 m c
theorem w2Arr_eq (c : Dev nD) : w2Arr m c = m ((c : Thread nD τ).loc main_arg5) := V_main_arg5 m c
theorem b2Arr_eq (c : Dev nD) : b2Arr m c = shapeCast S64x1 (m ((c : Thread nD τ).loc main_arg6)) Facts₀.shapeCasts_S64_S64x1 :=
  V_bias2 m c

/-- The first 100000 node columns of the perceptron of the padded aggregate are `G`: column `n` of the padded
    aggregate is node `n`'s aggregated column, and the bias columns read their entries. -/
theorem sliced_core (a0 : FVec Ideal S64x100000 .f32) (a1 a2 : IVec S1600000 32) (a3 : FVec Ideal S128x64 .f32)
    (a4 : FVec Ideal S128 .f32) (a5 : FVec Ideal S64x128 .f32) (a6 : FVec Ideal S64 .f32) :
    extractStridedSlice S64x100000 ![0, 0]
        (outPad (aggPad a0 a1 a2) a3 (shapeCast S128x1 a4 Facts₀.shapeCasts_S128_S128x1) a5
          (shapeCast S64x1 a6 Facts₀.shapeCasts_S64_S64x1))
        Facts₀.slices_S64x102400_S64x100000_0_0
      = Cert.MsgPass.G a0 (Cert.MsgPass.wrapWords a1) (Cert.MsgPass.wrapWords a2) a3 a4 a5 a6 := by
  funext i
  obtain ⟨o, n, rfl⟩ : ∃ (o : Fin 64) (n : Fin 100000), i = ix2 o n := ⟨i 0, i 1, eq_ix2 i⟩
  refine (extractStridedSlice_apply ![0, 0] _ Facts₀.slices_S64x102400_S64x100000_0_0 (ix2 o n)
    (ix2 o (⟨n.val, by have := n.isLt; omega⟩ : Fin 102400)) (fun a => ?_)).trans ?_
  · match a with
    | ⟨0, _⟩ => show o.val = 0 + o.val; omega
    | ⟨1, _⟩ => show n.val = 0 + n.val; omega
  unfold outPad Cert.MsgPass.G Cert.MsgPass.mlpCol
  refine congrArg₂ (· + ·) (Finset.sum_congr rfl fun j _ => congrArg (a5 (ix2 o j) * ·) (congrArg (max · 0)
    (congrArg₂ (· + ·) (Finset.sum_congr rfl fun f _ => congrArg (a3 (ix2 j f) * ·) (aggPad_apply a0 a1 a2 f n))
      (col128_apply a4 j))))
    (col64_apply a6 o)

/-- The same over the operand arrays as the kernel finds them. -/
theorem sliced_eq (c : Dev nD) :
    extractStridedSlice S64x100000 ![0, 0] (outPad (aggArr m c) (w1Arr m c) (b1Arr m c) (w2Arr m c) (b2Arr m c))
        Facts₀.slices_S64x102400_S64x100000_0_0
      = Cert.MsgPass.G (m ((c : Thread nD τ).loc main_arg0)) (Cert.MsgPass.wrapWords (m ((c : Thread nD τ).loc main_arg1)))
          (Cert.MsgPass.wrapWords (m ((c : Thread nD τ).loc main_arg2))) (m ((c : Thread nD τ).loc main_arg3))
          (m ((c : Thread nD τ).loc main_arg4)) (m ((c : Thread nD τ).loc main_arg5)) (m ((c : Thread nD τ).loc main_arg6)) := by
  rw [aggArr_eq, w1Arr_eq, b1Arr_eq, w2Arr_eq, b2Arr_eq]
  exact sliced_core _ _ _ _ _ _ _

/-- What the host operations after the kernel leave in the result array. -/
theorem tail_eq (c : Dev nD) :
    Pipeline.afterTail₀ cfgs (dats m) 0 (V0 m) [hostOps1] c main_v19
      = extractStridedSlice S64x100000 ![0, 0] (outPad (aggArr m c) (w1Arr m c) (b1Arr m c) (w2Arr m c) (b2Arr m c))
          Facts₀.slices_S64x102400_S64x100000_0_0 := by
  unfold Pipeline.afterTail₀
  show StableHlo.after hostOps1 _ (Proc.devRef .tc main_v19) = _
  after_results
  refine congrArg (fun x : FVec Ideal S64x102400 .f32 => extractStridedSlice S64x100000 ![0, 0] x Facts₀.slices_S64x102400_S64x100000_0_0) ?_
  exact (Pipeline.withArrays_arr spec0 launch0.win.arr_inj c _ _ 5).trans (outFinal m c)

/-- THE RUN: every weakly fair execution terminates with the result array at `G` of the arguments, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v19)
        = Cert.MsgPass.G (m ((c.tc : Thread nD τ).loc main_arg0)) (Cert.MsgPass.wrapWords (m ((c.tc : Thread nD τ).loc main_arg1)))
          (Cert.MsgPass.wrapWords (m ((c.tc : Thread nD τ).loc main_arg2))) (m ((c.tc : Thread nD τ).loc main_arg3))
          (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v19 (Pipeline.mem_restRefs_of main_v19 (by decide) (by decide))).trans ((tail_eq m c).trans (sliced_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c)⟩)
    (run_main m ρ)

end Cert.KernelIdeal.KValue

end
-- ==== Proof.RefValue.lean ====
/-
  The reference's result, read one operation at a time, is the message-passing perceptron `G` of the arguments:
  the transposes put nodes first, the gather reads each edge's source row, the segment sum adds the rows of the
  edges arriving at a node, and the two products with the transposed weights are the perceptron's two layers.
-/
import proofs.«155186_j44805098832263_1_alg».proof.Proof.Gen.ReferenceIdeal.Read
import proofs.«155186_j44805098832263_1_alg».proof.Proof.Spec
import proofs.«155186_j44805098832263_1_alg».proof.Proof.LibAxisScatter
import proofs.«155186_j44805098832263_1_alg».proof.Proof.LibAxisGather
import proofs.«155186_j44805098832263_1_alg».proof.Proof.LibPlainDot

noncomputable section

namespace Cert.ReferenceIdeal.RefValue

open Cert.ReferenceIdeal Cert.ReferenceIdeal.Gen Idealize.ShloMosaic Idealize.ShloMosaic.TcCoe Idealize.ShloMosaic.ValueIdx

/-- The wrapped source words are the reference's select of the shifted and the unshifted words. -/
private theorem words_eq (x1 : (⟨S1600000, .i32⟩ : BufTy).Contents (Elt Ideal)) :
    Read.val_main_v5 (F := Ideal) x1 = Cert.MsgPass.wrapWords x1 := rfl

/-- The gather reads, for edge `e`, the row of the edge's source node. -/
private theorem gather_read (x0 : (⟨S64x100000, .f32⟩ : BufTy).Contents (Elt Ideal)) (x1 : (⟨S1600000, .i32⟩ : BufTy).Contents (Elt Ideal))
    (e : Fin 1600000) (a : Fin 64) :
    Read.val_main_v7 (F := Ideal) x0 x1 (ix2 e a) = x0 (ix2 a (Cert.MsgPass.srcNode (Cert.MsgPass.wrapWords x1) e)) := by
  unfold Read.val_main_v7
  refine (Cert.Lib.AxisGather.gather_rows_apply (by decide) Facts₀.gather_S100000x64_S1600000x1_S1600000x64_1_0_n_n_0_1_164_wf _ _ e a).trans ?_
  rw [Read.val_main_v0_apply]
  have hw : Read.val_main_v6 (F := Ideal) x1 (Cert.Lib.AxisGather.wordIdx e) = Cert.MsgPass.wrapWords x1 (ix1 e) := by
    rw [Read.val_main_v6_apply, words_eq]
    exact congrArg (Cert.MsgPass.wrapWords x1) (funext fun d => Fin.ext (by match d with | ⟨0, _⟩ => rfl))
  refine congrArg x0 (funext fun d => Fin.ext ?_)
  match d with
  | ⟨0, _⟩ => rfl
  | ⟨1, _⟩ => exact congrArg (fun w : BitVec 32 => min (BitVec.toInt w).toNat (100000 - 1)) hw

/-- The segment sum at an entry, over arbitrary operands: the operand's entry plus the updates of the edges whose
    word is the row. -/
private theorem scatter_entry (x : FVec Ideal S100000x64 .f32) (idx : IVec S1600000x1 32) (upd : FVec Ideal S1600000x64 .f32)
    (n : Fin 100000) (a : Fin 64) :
    Host.scatterAdd (F := Ideal) scatter_S100000x64_S1600000x1_S1600000x64_1_0_0_1 x idx upd (ix2 n a)
      = x (ix2 n a) + ∑ e ∈ Finset.univ.filter (fun e : Fin 1600000 => (idx (Cert.Lib.AxisScatter.wordIdx e)).toInt = (n.val : Int)), upd (ix2 e a) :=
  Cert.Lib.AxisScatter.scatterAdd_rows_apply Facts₀.scatter_S100000x64_S1600000x1_S1600000x64_1_0_0_1_wf x idx upd n a

/-- The segment sum of the gathered rows into zeros is the aggregate. -/
private theorem scatter_read (x0 : (⟨S64x100000, .f32⟩ : BufTy).Contents (Elt Ideal)) (x1 x2 : (⟨S1600000, .i32⟩ : BufTy).Contents (Elt Ideal))
    (n : Fin 100000) (f : Fin 64) :
    Read.val_main_v10 (F := Ideal) x0 x1 x2 (ix2 n f) = Cert.MsgPass.agg x0 (Cert.MsgPass.wrapWords x1) x2 f n := by
  unfold Read.val_main_v10
  refine (scatter_entry (Read.val_main_v8 (F := Ideal)) (Read.val_main_v9 (F := Ideal) x2) (Read.val_main_v7 (F := Ideal) x0 x1) n f).trans ?_
  rw [Read.val_main_v8_apply, Read.val_main_cst_apply, Ideal.ofBits_def, Ideal.ofBits_zero_f32, zero_add]
  unfold Cert.MsgPass.agg
  have h9 : ∀ e : Fin 1600000, Read.val_main_v9 (F := Ideal) x2 (Cert.Lib.AxisScatter.wordIdx e) = x2 (ix1 e) := fun e => by
    rw [Read.val_main_v9_apply]
    exact congrArg x2 (funext fun d => Fin.ext (by match d with | ⟨0, _⟩ => rfl))
  simp only [h9]
  exact Finset.sum_congr rfl fun e _ => gather_read x0 x1 e f

/-- The first layer's product at an entry. -/
private theorem v12_read (x0 : (⟨S64x100000, .f32⟩ : BufTy).Contents (Elt Ideal)) (x1 x2 : (⟨S1600000, .i32⟩ : BufTy).Contents (Elt Ideal))
    (x3 : (⟨S128x64, .f32⟩ : BufTy).Contents (Elt Ideal)) (n : Fin 100000) (j : Fin 128) :
    Read.val_main_v12 (F := Ideal) x0 x1 x2 x3 (ix2 n j)
      = ∑ f : Fin 64, x3 (ix2 j f) * Cert.MsgPass.agg x0 (Cert.MsgPass.wrapWords x1) x2 f n := by
  rw [Read.val_main_v12_apply]
  refine Finset.sum_congr rfl fun f _ => ?_
  have hl : Read.lidx_main_v12 (ix2 n j) f = ix2 n f :=
    funext fun a => Fin.ext (by match a with | ⟨0, _⟩ => rfl | ⟨1, _⟩ => rfl)
  have hr : Read.idx_main_v11 (Read.ridx_main_v12 (ix2 n j) f) = ix2 j f :=
    funext fun a => Fin.ext (by match a with | ⟨0, _⟩ => rfl | ⟨1, _⟩ => rfl)
  rw [hl, scatter_read, Read.val_main_v11_apply, hr, mul_comm]

/-- The hidden layer at an entry. -/
private theorem v16_read (x0 : (⟨S64x100000, .f32⟩ : BufTy).Contents (Elt Ideal)) (x1 x2 : (⟨S1600000, .i32⟩ : BufTy).Contents (Elt Ideal))
    (x3 : (⟨S128x64, .f32⟩ : BufTy).Contents (Elt Ideal)) (x4 : (⟨S128, .f32⟩ : BufTy).Contents (Elt Ideal)) (n : Fin 100000) (j : Fin 128) :
    Read.val_main_v16 (F := Ideal) x0 x1 x2 x3 x4 (ix2 n j)
      = max ((∑ f : Fin 64, x3 (ix2 j f) * Cert.MsgPass.agg x0 (Cert.MsgPass.wrapWords x1) x2 f n) + x4 (ix1 j)) 0 := by
  have h : Read.idx_main_v13 (Read.idx_main_v14 (ix2 n j)) = ix1 j :=
    funext fun a => Fin.ext (by match a with | ⟨0, _⟩ => rfl)
  rw [Read.val_main_v16_apply, Read.val_main_v15_apply, v12_read, Read.val_main_v14_apply, Read.val_main_v13_apply, h,
    Read.val_main_call0_v0_apply, Read.val_main_call0_cst_apply, Ideal.ofBits_def, Ideal.ofBits_zero_f32,
    Ideal.maximumf_def, Ideal.addf_def]

/-- The reference run's result term is `G` of the arguments, the source words wrapped. -/
theorem result_eq (x0 : (⟨S64x100000, .f32⟩ : BufTy).Contents (Elt Ideal)) (x1 x2 : (⟨S1600000, .i32⟩ : BufTy).Contents (Elt Ideal))
    (x3 : (⟨S128x64, .f32⟩ : BufTy).Contents (Elt Ideal)) (x4 : (⟨S128, .f32⟩ : BufTy).Contents (Elt Ideal))
    (x5 : (⟨S64x128, .f32⟩ : BufTy).Contents (Elt Ideal)) (x6 : (⟨S64, .f32⟩ : BufTy).Contents (Elt Ideal)) :
    Read.val_main_v22 (F := Ideal) x0 x1 x2 x3 x4 x5 x6 = Cert.MsgPass.G x0 (Cert.MsgPass.wrapWords x1) x2 x3 x4 x5 x6 := by
  funext i
  obtain ⟨o, n, rfl⟩ : ∃ (o : Fin 64) (n : Fin 100000), i = ix2 o n := ⟨i 0, i 1, eq_ix2 i⟩
  have h22 : Read.idx_main_v22 (ix2 o n) = ix2 n o :=
    funext fun a => Fin.ext (by match a with | ⟨0, _⟩ => rfl | ⟨1, _⟩ => rfl)
  have hb : Read.idx_main_v19 (Read.idx_main_v20 (ix2 n o)) = ix1 o :=
    funext fun a => Fin.ext (by match a with | ⟨0, _⟩ => rfl)
  rw [Read.val_main_v22_apply, h22, Read.val_main_v21_apply, Read.val_main_v18_apply, Read.val_main_v20_apply,
    Read.val_main_v19_apply, hb, Ideal.addf_def]
  show _ = (∑ j : Fin 128, x5 (ix2 o j) * max ((∑ f : Fin 64, x3 (ix2 j f) * Cert.MsgPass.agg x0 (Cert.MsgPass.wrapWords x1) x2 f n) + x4 (ix1 j)) 0) + x6 (ix1 o)
  refine congrArg (· + x6 (ix1 o)) (Finset.sum_congr rfl fun j _ => ?_)
  have hl : Read.lidx_main_v18 (ix2 n o) j = ix2 n j :=
    funext fun a => Fin.ext (by match a with | ⟨0, _⟩ => rfl | ⟨1, _⟩ => rfl)
  have hr : Read.idx_main_v17 (Read.ridx_main_v18 (ix2 n o) j) = ix2 o j :=
    funext fun a => Fin.ext (by match a with | ⟨0, _⟩ => rfl | ⟨1, _⟩ => rfl)
  rw [hl, v16_read, Read.val_main_v17_apply, hr, mul_comm]

end Cert.ReferenceIdeal.RefValue

end
-- ==== Proof.PreDst.lean ====
/-
  What the precondition says of the destination words: none is negative, so Python's negative indexing leaves
  every one of them as it is.
-/
import proofs.«155186_j44805098832263_1_alg».proof.Pre_finite_inputs
import proofs.«155186_j44805098832263_1_alg».proof.Proof.Gen.Pre_finite_inputs
import proofs.«155186_j44805098832263_1_alg».proof.Proof.Spec
import Idealize.ShloMosaic.Lib.ReduceAll
import Idealize.ShloMosaic.Lib.StableHlo.Predicate

noncomputable section

namespace Cert.MsgPass

open Idealize.ShloMosaic Idealize.ShloMosaic.ValueIdx

/-- The shape with no axes has a single index. -/
private instance : Subsingleton Cert.Pre_finite_inputs.S_.Idx := ⟨fun a b => funext fun d => d.elim0⟩

/-- Under the precondition every destination word, read signed, is at least zero. -/
theorem dst_nonneg (a0 : FVec Ideal Cert.Pre_finite_inputs.S64x100000 .f32) (a1 a2 : IVec Cert.Pre_finite_inputs.S1600000 32)
    (a3 : FVec Ideal Cert.Pre_finite_inputs.S128x64 .f32) (a4 : FVec Ideal Cert.Pre_finite_inputs.S128 .f32)
    (a5 : FVec Ideal Cert.Pre_finite_inputs.S64x128 .f32) (a6 : FVec Ideal Cert.Pre_finite_inputs.S64 .f32)
    (h : Cert.Pre_finite_inputs.fn (F := Ideal) a0 a1 a2 a3 a4 a5 a6 = fun _ => 1#1) (e : Fin 1600000) :
    0 ≤ (a2 (ix1 e)).toInt := by
  have h0 := congrFun h ValueIdx.ix0
  dsimp only [Cert.Pre_finite_inputs.fn, Cert.Pre_finite_inputs.fn_part1] at h0
  -- the whole predicate is a conjunction whose last conjunct is the test of the destination words
  have h1 := (IntOp.andi_eq_one.1 h0).2
  -- an "all" that came out true had a true at every edge
  have h2 := Host.reduce_andi_all _ _ _ _ _ h1 (ix1 e)
  -- the signed test at edge e, against the zero word
  have h3 := IntOp.cmpi_sge.1 h2
  exact h3

/-- Words that are all at least zero are left as they are by the wrap of negative indices. -/
theorem wrapWords_of_nonneg (x : IVec ⟨1, ![1600000]⟩ 32) (h : ∀ e : Fin 1600000, 0 ≤ (x (ix1 e)).toInt) :
    wrapWords x = x := by
  funext i
  obtain ⟨e, rfl⟩ : ∃ e : Fin 1600000, i = ix1 e := ⟨i 0, eq_ix1 i⟩
  -- the test "word below zero" fails at this edge
  have hc : cmpi .slt x (broadcastInDim ⟨1, ![1600000]⟩ ![] spread (constantI ⟨0, ![]⟩ 32 0#32)) (ix1 e) = 0#1 := by
    refine eq_zero_of_ne_one fun hh => ?_
    have h1 := IntOp.cmpi_slt.1 hh
    have h2 := h e
    have hz : (broadcastInDim ⟨1, ![1600000]⟩ ![] spread (constantI ⟨0, ![]⟩ 32 0#32) (ix1 e)).toInt = 0 := rfl
    rw [hz] at h1
    omega
  -- so the selection keeps the word itself
  refine (select_apply _ _ _ _).trans ?_
  rw [hc, select_zero]

end Cert.MsgPass

end
-- ==== Proof.lean ====
/-
  Message passing over a graph, then a two-layer perceptron: the kernel program against its reference, over the
  extended reals.

  Both programs gather each edge's source node's 64 features and add them up at the edge's destination node, then
  apply `W2 · relu (W1 · a + b1) + b2` to every node's aggregated column. They differ in layout and in grouping only:
  the reference keeps nodes first and multiplies by the transposed weights, the kernel program keeps features first,
  pads the node axis to 25 blocks of 4096 columns, runs the perceptron block by block, and cuts the padding away.
  The two sums over edges range over the same edges (a destination word that is not a node lands nowhere in either
  program), each product of the perceptron is the same sum with its factors exchanged, and a change of float format is
  the identity on the extended reals; no law that fails at the infinities is used. One thing separates the programs:
  the kernel program wraps a negative DESTINATION word as Python's negative indexing does (word + 100000), the
  reference's segment sum drops it; the precondition says no destination word is negative, and then the wrap changes
  nothing. Source words are wrapped and clamped alike in both.

  The frames of the two kernel programs and the reference's run are the generated ones; the kernel program's result
  array is read off its frame run (the blocks the grid points write back cover the padded output, each block the
  perceptron of its node columns; the host operations before and after the kernel read at an entry), the reference's
  result term is read one operation at a time, and both are the one function `G` of the argument arrays.
-/
import proofs.«155186_j44805098832263_1_alg».proof.Defs
import proofs.«155186_j44805098832263_1_alg».proof.Proof.Gen.Kernel
import proofs.«155186_j44805098832263_1_alg».proof.Proof.Gen.Kernel.Skeleton
import proofs.«155186_j44805098832263_1_alg».proof.Proof.Gen.Kernel.Launch
import proofs.«155186_j44805098832263_1_alg».proof.Proof.Gen.Kernel.Points
import proofs.«155186_j44805098832263_1_alg».proof.Proof.Gen.Kernel.Frame
import proofs.«155186_j44805098832263_1_alg».proof.Proof.Gen.KernelIdeal
import proofs.«155186_j44805098832263_1_alg».proof.Proof.Gen.KernelIdeal.Skeleton
import proofs.«155186_j44805098832263_1_alg».proof.Proof.Gen.KernelIdeal.Launch
import proofs.«155186_j44805098832263_1_alg».proof.Proof.Gen.KernelIdeal.Points
import proofs.«155186_j44805098832263_1_alg».proof.Proof.Gen.KernelIdeal.Frame
import proofs.«155186_j44805098832263_1_alg».proof.Proof.Gen.ReferenceIdeal
import proofs.«155186_j44805098832263_1_alg».proof.Proof.Gen.Pre_finite_inputs
import proofs.«155186_j44805098832263_1_alg».proof.Proof.Gen.ReferenceIdeal.Run
import proofs.«155186_j44805098832263_1_alg».proof.Proof.Gen.ReferenceIdeal.Read
import proofs.«155186_j44805098832263_1_alg».proof.Proof.KRun
import proofs.«155186_j44805098832263_1_alg».proof.Proof.RefValue
import proofs.«155186_j44805098832263_1_alg».proof.Proof.PreDst
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with their results at `G` of the arguments,
    the source words wrapped: the kernel program's wrap of the destination words is the identity under the
    precondition. -/
theorem algebraic : Cert.algebraic_KernelIdeal_ReferenceIdeal := by
  intro m ρ m' ρ' hpre hagree
  refine ⟨fun c => Cert.MsgPass.G (m ((c.tc : Thread Cert.KernelIdeal.nD Cert.KernelIdeal.τ).loc Cert.KernelIdeal.main_arg0))
      (Cert.MsgPass.wrapWords (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.KValue.run m ρ)
    rw [Cert.MsgPass.wrapWords_of_nonneg _ (Cert.MsgPass.dst_nonneg _ _ _ _ _ _ _ (hpre c))]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v22_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
